-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x512 : Shape := ⟨2, ![2, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S2x512 : S_.BroadcastsInDim S2x512 (![] : Fin 0 → Fin S2x512.rank)
  reducesTo_S2x512_S_d0_1 : S2x512.ReducesTo [0, 1] S_

variable [Facts]

def fn {F : FTy → Type} [FloatOps F] (main_arg0 : FVec F S8192x512 .f32) (main_arg1 : FVec F S2x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S2x512 .f32 := Host.absf main_arg1
  let main_cst_0 : FVec F S_ .f32 := constant S_ .f32 0x7F800000#32
  let main_v5 : FVec F S2x512 .f32 := broadcastInDim S2x512 ![] bcast_S_S2x512 main_cst_0
  let main_v6 : IVec S2x512 1 := cmpf .olt main_v4 main_v5
  let main_c_1 : IVec S_ 1 := constantI S_ 1 1#1
  let main_v7 : IVec S_ 1 := (fun x v => Host.reduce IntOp.andi x v reducesTo_S2x512_S_d0_1 h_S_) main_v6 main_c_1
  let main_v8 : IVec S_ 1 := andi main_v3 main_v7
  main_v8
-- ==== Kernel.lean ====
abbrev S8192x512 : Shape := ⟨2, ![8192, 512]⟩
abbrev S2x512 : Shape := ⟨2, ![2, 512]⟩
abbrev S1024x512 : Shape := ⟨2, ![1024, 512]⟩
abbrev S1x512 : Shape := ⟨2, ![1, 512]⟩
abbrev S512 : Shape := ⟨1, ![512]⟩
abbrev S1024 : Shape := ⟨1, ![1024]⟩
abbrev S1024x1 : Shape := ⟨2, ![1024, 1]⟩
abbrev S8192x8192 : Shape := ⟨2, ![8192, 8192]⟩
abbrev S1024x1024 : Shape := ⟨2, ![1024, 1024]⟩
abbrev S512x1024 : Shape := ⟨2, ![512, 1024]⟩

abbrev nBuf : Space → Nat
  | .hbm => 4
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S2x512, .f32⟩
  | .hbm, ⟨2, _⟩ => ⟨S8192x512, .bf16⟩
  | .hbm, ⟨3, _⟩ => ⟨S8192x8192, .f32⟩
  | .local _ .vmem, ⟨0, _⟩ => ⟨S2x512, .f32⟩
  | .local _ .vmem, ⟨1, _⟩ => ⟨S1024x512, .f32⟩
  | .local _ .vmem, ⟨2, _⟩ => ⟨S1024x512, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x1024, .f32⟩
  | .local _ .vmem, ⟨10, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1024x512_S1024x512_0_0 : ∀ a, (![0, 0] : Fin 2 → Nat) a + S1024x512.size a ≤ S1024x512.size a
  h_S1024x512 : 0 < S1024x512.numel
  inb_S2x512_S1x512_0_0 : ∀ a, (![0, 0] : Fin 2 → Nat) a + S1x512.size a ≤ S2x512.size a
  h_S1x512 : 0 < S1x512.numel
  shapeCasts_S1x512_S512 : S1x512.ShapeCasts S512
  shapeCasts_S512_S1x512 : S512.ShapeCasts S1x512
  broadcasts_S1x512_S1024x512 : S1x512.Broadcasts S1024x512
  inb_S2x512_S1x512_1_0 : ∀ a, (![1, 0] : Fin 2 → Nat) a + S1x512.size a ≤ S2x512.size a
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  shapeCasts_S1024x512_S1024x512 : S1024x512.ShapeCasts S1024x512
  transposes_S1024x512_p1_0_S512x1024 : S1024x512.Transposes [1, 0] S512x1024
  inb_S1024x1024_S1024x1024_0_0 : ∀ a, (![0, 0] : Fin 2 → Nat) a + S1024x1024.size a ≤ S1024x1024.size a
  h_S1024x1024 : 0 < S1024x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x512.size a ≤ S2x512.size a
  hwx0_0 : ∀ i : grid0.Coords, EltTy.bits .f32 = 32 ∨ (Rect.block (s := S2x512) S2x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .bf16 = 32 ∨ (Rect.block (s := S8192x512) S1024x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .bf16 = 32 ∨ (Rect.block (s := S8192x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .bf16 = 32 ∨ (Rect.block (s := S8192x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg1) S2x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x512 : Shape := ⟨2, ![8192, 512]⟩
abbrev S2x512 : Shape := ⟨2, ![2, 512]⟩
abbrev S1x512 : Shape := ⟨2, ![1, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S2x512, .f32⟩
  | .hbm, ⟨2, _⟩ => ⟨S1x512, .f32⟩
  | .hbm, ⟨3, _⟩ => ⟨S512, .f32⟩
  | .hbm, ⟨4, _⟩ => ⟨S1x512, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S8192x512, .f32⟩
  | .hbm, ⟨9, _⟩ => ⟨S8192x512, .f32⟩
  | .hbm, ⟨10, _⟩ => ⟨S1x512, .f32⟩
  | .hbm, ⟨11, _⟩ => ⟨S512, .f32⟩
  | .hbm, ⟨12, _⟩ => ⟨S1x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x512, .f32⟩
  | .hbm, ⟨24, _⟩ => ⟨S8192x512, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call1_cst : Ref sig .tc := ⟨.hbm, 26, rfl⟩
abbrev main_call1_v0 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  slices_S2x512_S1x512_0_0 : S2x512.Slices ![0, 0] S1x512
  shapeCasts_S1x512_S512 : S1x512.ShapeCasts S512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  slices_S2x512_S1x512_1_0 : S2x512.Slices ![1, 0] S1x512
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S_S8192x8192 : S_.BroadcastsInDim S8192x8192 (![] : Fin 0 → Fin S8192x8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.NormK.lean ====
/-
  The row-normalising launch, one grid point at a time.

  At grid point `t` the launch is handed the whole weight array (both rows) and the `t`-th block of 1024 feature rows, and
  leaves in its output block one store that covers the block: the payload of the two input blocks.  Stated here, at any
  contents `V` of the core's buffers on entry and for any float instance: each input block as a read of `V`, what the
  body leaves in the output block, the body's triple, the proof data of the launch (the weight array and the features held
  whole, nothing owed), and the body obligation at every point.
-/
import proofs.«135905_j29703993819980_1_alg».proof.Proof.Gen.Kernel.Launch
import proofs.«135905_j29703993819980_1_alg».proof.Proof.Gen.Kernel.Skeleton
import proofs.«135905_j29703993819980_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Norm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight window's staging buffer holds the weight array at every point, fetched there or not. -/
theorem before_w_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The feature window's staging buffer holds the point's block of rows. -/
theorem before_x_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body's accesses: the whole block of rows (loaded, and stored over in the output), and the two weight rows. -/
abbrev rRows : Rect S1024x512 := Rect.unit (s := S1024x512) ![0, 0] S1024x512.size inb_S1024x512_S1024x512_0_0
abbrev rW0 : Rect S2x512 := Rect.unit (s := S2x512) ![0, 0] S1x512.size inb_S2x512_S1x512_0_0
abbrev rW1 : Rect S2x512 := Rect.unit (s := S2x512) ![1, 0] S1x512.size inb_S2x512_S1x512_1_0

/-- The output block after the body, from the weight array and the block of rows: its one store as a piece. -/
def out (xw : Vec F S2x512 .f32) (xr : Vec F S1024x512 .f32) : Vec F S1024x512 .bf16 :=
  View.canon [⟨rRows, k0_pay1 (View.ld xr rRows) (View.ld xw rW0) (View.ld xw rW1)⟩]

/-- The store covers the block. -/
theorem cover (p0 : Vec F S1024x512 .bf16) (y : S1024x512.Idx) :
    ∃ pc ∈ ([⟨rRows, p0⟩] : List (View.Piece (Elt F) S1024x512 .bf16)), y ∈ pc.1.set :=
  View.cover_of_tiled [⟨rRows, p0⟩] S1024x512.size (by rfl) y

set_option maxHeartbeats 1000000 in
/-- The body on whole staging memrefs: the inputs are kept, the output ends at `out` of the inputs. -/
theorem sound_kernel (c : Dev nD) (E : Set ℕ) (i : grid0.Coords)
    (arg1 : Memref sig .tc .vmem S2x512 .f32) (harg1 : arg1.IsWhole) (arg2 : Memref sig .tc .vmem S1024x512 .f32) (harg2 : arg2.IsWhole)
    (arg3 : Memref sig .tc .vmem S1024x512 .bf16) (harg3 : arg3.IsWhole)
    (xw : Vec F S2x512 .f32) (xr : Vec F S1024x512 .f32) (K : PUnit → sProp 𝕄) :
    iprop(owns (c : Thread nD τ) arg1 fullShare xw ∗ owns (c : Thread nD τ) arg2 fullShare xr ∗ (∃ d, owns (c : Thread nD τ) arg3 fullShare d)
        ∗ (iprop(owns (c : Thread nD τ) arg1 fullShare xw ∗ owns (c : Thread nD τ) arg2 fullShare xr
            ∗ owns (c : Thread nD τ) arg3 fullShare (out xw xr)) -∗ K ⟨⟩))
      ⊢ wp frame (wpE (defs₀ (F := F)) Variants.none c none) E (cc0__norm_kernel i arg1 harg1 arg2 harg2 arg3 harg3) K := by
  simp only [cc0__norm_kernel_eq_skeleton]; unfold cc0__norm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The proof data of the launch on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_w (c : Dev nD) (t : Fin cfg0.N) : (dat V c).after 0 t = iblk V c 0 t := by dsimp only [dat]
theorem after_x (c : Dev nD) (t : Fin cfg0.N) : (dat V c).after 1 t = iblk V c 1 t := by dsimp only [dat]
theorem after_out (c : Dev nD) (t : Fin cfg0.N) : (dat V c).after 2 t = out (iblk V c 0 t) (iblk V c 1 t) := by dsimp only [dat]

theorem before_w (c : Dev nD) (t : Fin cfg0.N) (d) : (dat V c).before 0 t d = iblk V c 0 t :=
  before_w_of V (dat V c) (A_eq V c 0) (after_w V c) t d
theorem before_x (c : Dev nD) (t : Fin cfg0.N) (d) : (dat V c).before 1 t d = iblk V c 1 t :=
  before_x_of V (dat V c) (A_eq V c 1) (after_x V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_w, before_x]
  rw [show (dat V c).Φ t.succ = (dat V c).Φ t.castSucc from rfl,
    show (dat V c).owesAt () t.succ = (dat V c).owesAt () t.castSucc from rfl,
    after_w, after_x, after_out]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Norm

end
-- ==== Proof.SimK.lean ====
/-
  The inner-product launch, one grid point at a time.

  At grid point `t = (i, j)` the launch is handed two blocks of 1024 rows of ONE array — block `i` through its first
  window and block `j` through its second — and leaves in its output block one store that covers the block: the payload of
  the two row blocks.  Because both input windows read the same array, the array is held by the launch as two halves of
  its full share, one half per window.  Stated here, at any contents `V` of the core's buffers on entry and for any float
  instance: each input block as a read of `V`, what the body leaves in the output block, the body's triple, the proof
  data of the launch, and the body obligation at every point.
-/
import proofs.«135905_j29703993819980_1_alg».proof.Proof.Gen.Kernel.Launch
import proofs.«135905_j29703993819980_1_alg».proof.Proof.Gen.Kernel.Skeleton
import proofs.«135905_j29703993819980_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sim

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first window's staging buffer holds its block of rows at every point, fetched there or not. -/
theorem before_l_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The second window's staging buffer holds its block of rows. -/
theorem before_r_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body's accesses: a whole block of rows (each input), the whole output block. -/
abbrev rRows : Rect S1024x512 := Rect.unit (s := S1024x512) ![0, 0] S1024x512.size inb_S1024x512_S1024x512_0_0
abbrev rOut : Rect S1024x1024 := Rect.unit (s := S1024x1024) ![0, 0] S1024x1024.size inb_S1024x1024_S1024x1024_0_0

/-- The output block after the body, from the two blocks of rows: its one store as a piece. -/
def out (xl xr : Vec F S1024x512 .bf16) : Vec F S1024x1024 .f32 :=
  View.canon [⟨rOut, k1_pay1 (View.ld xl rRows) (View.ld xr rRows)⟩]

/-- The store covers the block. -/
theorem cover (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

set_option maxHeartbeats 1000000 in
/-- The body on whole staging memrefs: the inputs are kept, the output ends at `out` of the inputs. -/
theorem sound_kernel (c : Dev nD) (E : Set ℕ) (i : grid1.Coords)
    (arg2 : Memref sig .tc .vmem S1024x512 .bf16) (harg2 : arg2.IsWhole) (arg3 : Memref sig .tc .vmem S1024x512 .bf16) (harg3 : arg3.IsWhole)
    (arg4 : Memref sig .tc .vmem S1024x1024 .f32) (harg4 : arg4.IsWhole)
    (xl xr : Vec F S1024x512 .bf16) (K : PUnit → sProp 𝕄) :
    iprop(owns (c : Thread nD τ) arg2 fullShare xl ∗ owns (c : Thread nD τ) arg3 fullShare xr ∗ (∃ d, owns (c : Thread nD τ) arg4 fullShare d)
        ∗ (iprop(owns (c : Thread nD τ) arg2 fullShare xl ∗ owns (c : Thread nD τ) arg3 fullShare xr
            ∗ owns (c : Thread nD τ) arg4 fullShare (out xl xr)) -∗ K ⟨⟩))
      ⊢ wp frame (wpE (defs₀ (F := F)) Variants.none c none) E (cc1__sim_kernel i arg2 harg2 arg3 harg3 arg4 harg4) K := by
  simp only [cc1__sim_kernel_eq_skeleton]; unfold cc1__sim_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The proof data of the launch on core `c`: the shared array held as its two halves, one per input window. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => out (iblk V c 0 t) (iblk V c 1 t)
  Φ _ := Pipeline.ΦA spec1 c
  q w := match w with
    | ⟨0, _⟩ => fullShare.left
    | ⟨1, _⟩ => fullShare.right
    | ⟨2, _⟩ => fullShare
  owed _ := 0

theorem A_eq (c : Dev nD) (w : Fin cfg1.W) : (dat V c).A w = V c (Pipeline.arrRef spec1 w) := by
  dsimp only [dat]

theorem after_l (c : Dev nD) (t : Fin cfg1.N) : (dat V c).after 0 t = iblk V c 0 t := by dsimp only [dat]
theorem after_r (c : Dev nD) (t : Fin cfg1.N) : (dat V c).after 1 t = iblk V c 1 t := by dsimp only [dat]
theorem after_out (c : Dev nD) (t : Fin cfg1.N) : (dat V c).after 2 t = out (iblk V c 0 t) (iblk V c 1 t) := by dsimp only [dat]

theorem share_l (c : Dev nD) : (dat V c).share 0 = fullShare.left := rfl
theorem share_r (c : Dev nD) : (dat V c).share 1 = fullShare.right := rfl
theorem share_out (c : Dev nD) : (dat V c).share 2 = fullShare := rfl

theorem before_l (c : Dev nD) (t : Fin cfg1.N) (d) : (dat V c).before 0 t d = iblk V c 0 t :=
  before_l_of V (dat V c) (A_eq V c 0) (after_l V c) t d
theorem before_r (c : Dev nD) (t : Fin cfg1.N) (d) : (dat V c).before 1 t d = iblk V c 1 t :=
  before_r_of V (dat V c) (A_eq V c 1) (after_r V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_l, before_r]
  rw [show (dat V c).Φ t.succ = (dat V c).Φ t.castSucc from rfl,
    show (dat V c).owesAt () t.succ = (dat V c).owesAt () t.castSucc from rfl,
    after_l, after_r, after_out]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Sim

end
-- ==== Proof.RunK.lean ====
/-
  The whole program: the row-normalising launch, then the inner-product launch, from the launch of @main to its return.

  Between the two launches the core's unscoped buffers hold what @main was launched with, except the intermediate array,
  which holds what the first launch's write-backs leave (`V1`).  The second launch reads that one array through both its
  input windows, so at its entry the array is dealt into the two halves of its full share, one per window; its output
  array is held outright.  At the return the result array holds what the second launch's write-backs leave and the two
  argument arrays hold what they were launched with (`run_main`), for any float instance.
-/
import proofs.«135905_j29703993819980_1_alg».proof.Proof.NormK
import proofs.«135905_j29703993819980_1_alg».proof.Proof.SimK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch, -/
abbrev W0 : Dev nD → Valuation τ sig (Elt F) := fun c b => m ((c : Dev nD), b)
abbrev V0 : (c : Dev nD) → (b : Ref sig .tc) → Buf (Elt F) ((c : Thread nD τ).loc b) := fun c b => W0 m c b
/-- and after the first launch: its arrays at what its write-backs leave, every other buffer as launched. -/
def W1 (c : Dev nD) : Valuation τ sig (Elt F) :=
  Pipeline.withArrays spec0 c (W0 m c) fun w => (Norm.dat (V0 m) c).arrAt w cfg0.N
theorem W1_arr (c : Dev nD) (w : Fin cfg0.W) :
    W1 m c (Proc.devRef .tc (Pipeline.arrRef spec0 w)) = (Norm.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Norm.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- The first launch only reads the two arguments: they reach the second launch as launched. -/
theorem V1_main_arg0 (c : Dev nD) : V1 m c main_arg0 = m ((c : Thread nD τ).loc main_arg0) :=
  (W1_arr m c 1).trans (((Norm.dat (V0 m) c).arrAt_in 1 rfl _).trans (Norm.A_eq (V0 m) c 1))
theorem V1_main_arg1 (c : Dev nD) : V1 m c main_arg1 = m ((c : Thread nD τ).loc main_arg1) :=
  (W1_arr m c 0).trans (((Norm.dat (V0 m) c).arrAt_in 0 rfl _).trans (Norm.A_eq (V0 m) c 0))
/-- The intermediate array holds what the first launch's write-backs leave. -/
theorem V1_main_v0 (c : Dev nD) : V1 m c main_v0 = (Norm.dat (V0 m) c).arrAt 2 cfg0.N := W1_arr m c 2

/-! ## The proof data family and the thread states -/

abbrev adm : (p : Fin 2) → (pcfgs (F := F) p).Adm := fun p => (cfgs p).toPCfg_adm
/-- Each launch's proof data at its entry contents: a literal match on the launch. -/
def pdats : (p : Fin 2) → (c : Dev nD) → Dat τ (Elt F) Unit ℕ (UR sig nD τ) ℕ (Pipeline.pin (pcfgs (F := F)) adm p) c
  | ⟨0, _⟩ => fun c => Norm.dat (V0 m) c
  | ⟨1, _⟩ => fun c => Sim.dat (V1 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
/-- The last thread state: the second launch's arrays as it leaves them (the shared array still in halves), the two
    argument arrays, the generator register. -/
abbrev Tₙ (c : Dev nD) : sProp 𝕄 :=
  iprop((Sim.dat (V1 m) c).arrays ((Sim.dat (V1 m) c).arrAt · cfg1.N)
    ∗ Pipeline.unscopedRest (Ix := Unit) (Name := ℕ) (U := UR sig nD τ) (Lvl := ℕ) spec1 c (V1 m c) ∗ ∃ r, prngReg c r)

/-! ## The shared array dealt to the two windows -/

/-- The two distinct buffers behind the second launch's three windows, each whole at the full share, are its arrays at
    their shares: the intermediate array's full share is its left half and its right half. -/
theorem arrays_of_bufs (V : (c : Dev nD) → (b : Ref sig .tc) → Buf (Elt F) ((c : Thread nD τ).loc b)) (c : Dev nD) :
    (Pipeline.arrBufs (Ix := Unit) (Name := ℕ) (U := UR sig nD τ) (Lvl := ℕ) spec1 c (V c) : sProp 𝕄)
      ⊢ (Sim.dat V c).arrays ((Sim.dat V c).arrAt · 0) := by
  unfold Pipeline.arrBufs Pipeline.Dat.arrays
  rw [bigSep_eq_bigSepL_of_eq [main_v0, main_v1] (by decide) (by decide), bigSep_W1]
  rw [(arr_whole1 0).set_eq_univ, (arr_whole1 2).set_eq_univ]
  change iprop((((c : Thread nD τ).loc main_v0) ↦{fullShare} V c main_v0) ∗ (((c : Thread nD τ).loc main_v1) ↦{fullShare} V c main_v1)) ⊢ _
  iintro ⟨H0, H1⟩
  ihave H0' := (pointsTo_share (PosShare.mem_left_op_right fullShare)).1 $$ H0
  icases H0' with ⟨Hl, Hr⟩
  isplitl [Hl]; · iexact Hl
  isplitl [Hr]; · iexact Hr
  iexact H1

/-! ## The last thread state read against a final memory -/

/-- The second launch's arrays, held at their shares beside a final state, say what that state's memory holds at the
    result array. -/
theorem read_arrays (V : (c : Dev nD) → (b : Ref sig .tc) → Buf (Elt F) ((c : Thread nD τ).loc b)) (c : Dev nD)
    (s' : Phys nD τ sig (Elt F)) :
    iprop((Sim.dat V c).arrays ((Sim.dat V c).arrAt · cfg1.N) ∗ SI s')
      ⊢ (iprop(⌜s'.mem.mem ((c.tc : Thread nD τ).loc main_v1) = (Sim.dat V c).arrAt 2 cfg1.N⌝ ∗ SI s') : sProp 𝕄) := by
  have harr : ((Sim.dat V c).arrays ((Sim.dat V c).arrAt · cfg1.N) : sProp 𝕄)
      = bigSep Finset.univ fun w : Fin 3 =>
          (((c.tc : Thread nD τ).loc (Pipeline.arrRef spec1 w)) ↦{(Sim.dat V c).share w} (Sim.dat V c).arrAt w cfg1.N : sProp 𝕄) := by
    unfold Pipeline.Dat.arrays
    exact bigSep_congr fun w _ => by rw [(arr_whole1 w).set_eq_univ]
  rw [harr]
  iintro ⟨Ha, HSI⟩
  ihave Hr := (pointsTo_read_all' Finset.univ (fun w : Fin 3 => (c.tc : Thread nD τ).loc (Pipeline.arrRef spec1 w))
    ((Sim.dat V c).arrAt · cfg1.N) s' (Sim.dat V c).share) $$ [Ha HSI]
  · isplitl [Ha] <;> iassumption
  icases Hr with ⟨%ha, HSI⟩
  isplitr; · ipureintro; exact ha 2 (Finset.mem_univ _)
  iexact HSI

/-- The unscoped buffers the second launch does not move, held beside a final state, say what that state's memory holds at
    the two argument arrays. -/
theorem read_rest (V : (c : Dev nD) → (b : Ref sig .tc) → Buf (Elt F) ((c : Thread nD τ).loc b)) (c : Dev nD)
    (s' : Phys nD τ sig (Elt F)) :
    iprop(Pipeline.unscopedRest (Ix := Unit) (Name := ℕ) (U := UR sig nD τ) (Lvl := ℕ) spec1 c (V c) ∗ SI s')
      ⊢ (iprop(⌜s'.mem.mem ((c.tc : Thread nD τ).loc main_arg0) = V c main_arg0
          ∧ s'.mem.mem ((c.tc : Thread nD τ).loc main_arg1) = V c main_arg1⌝ ∗ SI s') : sProp 𝕄) := by
  unfold Pipeline.unscopedRest
  iintro ⟨Hr, HSI⟩
  ihave H := (pointsTo_read_all _ (fun b : Ref sig .tc => (c.tc : Thread nD τ).loc b) (V c) s') $$ [Hr HSI]
  · isplitl [Hr] <;> iassumption
  icases H with ⟨%h, HSI⟩
  isplitr; · ipureintro; exact ⟨h main_arg0 (by decide), h main_arg1 (by decide)⟩
  iexact HSI

/-! ## The launches as segments -/

set_option backward.isDefEq.respectTransparency.types false in
/-- The row-normalising launch over the thread state: entered from every unscoped buffer at the launch contents, left
    with the intermediate array at what its write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Norm.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The inner-product launch over the thread state: entered from every unscoped buffer at `V1`, the intermediate array
    dealt into its two halves; left at the last thread state. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Sim.body_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit : (unscopedBufs c (V1 m c) : sProp 𝕄)
        ⊢ iprop((pdats m 1 c).arrays ((pdats m 1 c).arrAt · 0)
            ∗ Pipeline.unscopedRest (Ix := Unit) (Name := ℕ) (U := UR sig nD τ) (Lvl := ℕ) spec1 c (V1 m c)) := by
      rw [Pipeline.unscopedBufs_split₀ cfgs 1 winFacts₀1.arr_unscoped c (V1 m c)]
      exact sep_mono (arrays_of_bufs (V1 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.Dat.owesAt Pipeline.owesWithin
    icases HO with ⟨%W, -, HO⟩; iexists W; iexact HO

/-! ## The run -/

set_option backward.isDefEq.respectTransparency.types false in
/-- From any memory with zero counters every weakly fair execution of @main terminates, nothing faulting; the result
    array ends at what the second launch's write-backs leave and the argument arrays as launched. -/
theorem run_main : θ_run defs (onTc (τ := τ) (main (F := F))) ⟨m, fun _ => 0, ρ⟩ (fun r => ∀ c : Dev nD,
      r.2.mem ((c.tc : Thread nD τ).loc main_v1) = (Sim.dat (V1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main
    [.region (reg0 m), .region (reg1 m)]
    (fun c Q => by rw [main_segs adm (pdats m) () 𝒱₀ L lv (reg0 m) (reg1 m) c])
    (by simp only [Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v1) = (Sim.dat (V1 m) c).arrAt 2 cfg1.N
      ∧ s.mem ((c.tc : Thread nD τ).loc main_arg0) = V1 m c main_arg0
      ∧ s.mem ((c.tc : Thread nD τ).loc main_arg1) = V1 m c main_arg1)
    (hfin := fun c s' => by
      iintro ⟨⟨Ha, Hrest, -⟩, HSI⟩
      ihave H1 := (read_arrays (V1 m) c s') $$ [Ha HSI]
      · isplitl [Ha] <;> iassumption
      icases H1 with ⟨%h1, HSI⟩
      ihave H2 := (read_rest (V1 m) c s') $$ [Hrest HSI]
      · isplitl [Hrest] <;> iassumption
      icases H2 with ⟨%h2, HSI⟩
      imodintro
      isplitr; · ipureintro; exact ⟨h1, h2.1, h2.2⟩
      iexact HSI)
    (hQ := fun s h c => ⟨(h c).1, (h c).2.1.trans (V1_main_arg0 m c), (h c).2.2.trans (V1_main_arg1 m c)⟩)

end Cert.Kernel.Whole

end
-- ==== Proof.NormKI.lean ====
/-
  The row-normalising launch, one grid point at a time.

  At grid point `t` the launch is handed the whole weight array (both rows) and the `t`-th block of 1024 feature rows, and
  leaves in its output block one store that covers the block: the payload of the two input blocks.  Stated here, at any
  contents `V` of the core's buffers on entry and for any float instance: each input block as a read of `V`, what the
  body leaves in the output block, the body's triple, the proof data of the launch (the weight array and the features held
  whole, nothing owed), and the body obligation at every point.
-/
import proofs.«135905_j29703993819980_1_alg».proof.Proof.Gen.KernelIdeal.Launch
import proofs.«135905_j29703993819980_1_alg».proof.Proof.Gen.KernelIdeal.Skeleton
import proofs.«135905_j29703993819980_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight window's staging buffer holds the weight array at every point, fetched there or not. -/
theorem before_w_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The feature window's staging buffer holds the point's block of rows. -/
theorem before_x_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body's accesses: the whole block of rows (loaded, and stored over in the output), and the two weight rows. -/
abbrev rRows : Rect S1024x512 := Rect.unit (s := S1024x512) ![0, 0] S1024x512.size inb_S1024x512_S1024x512_0_0
abbrev rW0 : Rect S2x512 := Rect.unit (s := S2x512) ![0, 0] S1x512.size inb_S2x512_S1x512_0_0
abbrev rW1 : Rect S2x512 := Rect.unit (s := S2x512) ![1, 0] S1x512.size inb_S2x512_S1x512_1_0

/-- The output block after the body, from the weight array and the block of rows: its one store as a piece. -/
def out (xw : Vec F S2x512 .f32) (xr : Vec F S1024x512 .f32) : Vec F S1024x512 .bf16 :=
  View.canon [⟨rRows, k0_pay1 (View.ld xr rRows) (View.ld xw rW0) (View.ld xw rW1)⟩]

/-- The store covers the block. -/
theorem cover (p0 : Vec F S1024x512 .bf16) (y : S1024x512.Idx) :
    ∃ pc ∈ ([⟨rRows, p0⟩] : List (View.Piece (Elt F) S1024x512 .bf16)), y ∈ pc.1.set :=
  View.cover_of_tiled [⟨rRows, p0⟩] S1024x512.size (by rfl) y

set_option maxHeartbeats 1000000 in
/-- The body on whole staging memrefs: the inputs are kept, the output ends at `out` of the inputs. -/
theorem sound_kernel (c : Dev nD) (E : Set ℕ) (i : grid0.Coords)
    (arg1 : Memref sig .tc .vmem S2x512 .f32) (harg1 : arg1.IsWhole) (arg2 : Memref sig .tc .vmem S1024x512 .f32) (harg2 : arg2.IsWhole)
    (arg3 : Memref sig .tc .vmem S1024x512 .bf16) (harg3 : arg3.IsWhole)
    (xw : Vec F S2x512 .f32) (xr : Vec F S1024x512 .f32) (K : PUnit → sProp 𝕄) :
    iprop(owns (c : Thread nD τ) arg1 fullShare xw ∗ owns (c : Thread nD τ) arg2 fullShare xr ∗ (∃ d, owns (c : Thread nD τ) arg3 fullShare d)
        ∗ (iprop(owns (c : Thread nD τ) arg1 fullShare xw ∗ owns (c : Thread nD τ) arg2 fullShare xr
            ∗ owns (c : Thread nD τ) arg3 fullShare (out xw xr)) -∗ K ⟨⟩))
      ⊢ wp frame (wpE (defs₀ (F := F)) Variants.none c none) E (cc0__norm_kernel i arg1 harg1 arg2 harg2 arg3 harg3) K := by
  simp only [cc0__norm_kernel_eq_skeleton]; unfold cc0__norm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The proof data of the launch on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_w (c : Dev nD) (t : Fin cfg0.N) : (dat V c).after 0 t = iblk V c 0 t := by dsimp only [dat]
theorem after_x (c : Dev nD) (t : Fin cfg0.N) : (dat V c).after 1 t = iblk V c 1 t := by dsimp only [dat]
theorem after_out (c : Dev nD) (t : Fin cfg0.N) : (dat V c).after 2 t = out (iblk V c 0 t) (iblk V c 1 t) := by dsimp only [dat]

theorem before_w (c : Dev nD) (t : Fin cfg0.N) (d) : (dat V c).before 0 t d = iblk V c 0 t :=
  before_w_of V (dat V c) (A_eq V c 0) (after_w V c) t d
theorem before_x (c : Dev nD) (t : Fin cfg0.N) (d) : (dat V c).before 1 t d = iblk V c 1 t :=
  before_x_of V (dat V c) (A_eq V c 1) (after_x V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_w, before_x]
  rw [show (dat V c).Φ t.succ = (dat V c).Φ t.castSucc from rfl,
    show (dat V c).owesAt () t.succ = (dat V c).owesAt () t.castSucc from rfl,
    after_w, after_x, after_out]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Norm

end
-- ==== Proof.SimKI.lean ====
/-
  The inner-product launch, one grid point at a time.

  At grid point `t = (i, j)` the launch is handed two blocks of 1024 rows of ONE array — block `i` through its first
  window and block `j` through its second — and leaves in its output block one store that covers the block: the payload of
  the two row blocks.  Because both input windows read the same array, the array is held by the launch as two halves of
  its full share, one half per window.  Stated here, at any contents `V` of the core's buffers on entry and for any float
  instance: each input block as a read of `V`, what the body leaves in the output block, the body's triple, the proof
  data of the launch, and the body obligation at every point.
-/
import proofs.«135905_j29703993819980_1_alg».proof.Proof.Gen.KernelIdeal.Launch
import proofs.«135905_j29703993819980_1_alg».proof.Proof.Gen.KernelIdeal.Skeleton
import proofs.«135905_j29703993819980_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sim

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first window's staging buffer holds its block of rows at every point, fetched there or not. -/
theorem before_l_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The second window's staging buffer holds its block of rows. -/
theorem before_r_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body's accesses: a whole block of rows (each input), the whole output block. -/
abbrev rRows : Rect S1024x512 := Rect.unit (s := S1024x512) ![0, 0] S1024x512.size inb_S1024x512_S1024x512_0_0
abbrev rOut : Rect S1024x1024 := Rect.unit (s := S1024x1024) ![0, 0] S1024x1024.size inb_S1024x1024_S1024x1024_0_0

/-- The output block after the body, from the two blocks of rows: its one store as a piece. -/
def out (xl xr : Vec F S1024x512 .bf16) : Vec F S1024x1024 .f32 :=
  View.canon [⟨rOut, k1_pay1 (View.ld xl rRows) (View.ld xr rRows)⟩]

/-- The store covers the block. -/
theorem cover (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

set_option maxHeartbeats 1000000 in
/-- The body on whole staging memrefs: the inputs are kept, the output ends at `out` of the inputs. -/
theorem sound_kernel (c : Dev nD) (E : Set ℕ) (i : grid1.Coords)
    (arg2 : Memref sig .tc .vmem S1024x512 .bf16) (harg2 : arg2.IsWhole) (arg3 : Memref sig .tc .vmem S1024x512 .bf16) (harg3 : arg3.IsWhole)
    (arg4 : Memref sig .tc .vmem S1024x1024 .f32) (harg4 : arg4.IsWhole)
    (xl xr : Vec F S1024x512 .bf16) (K : PUnit → sProp 𝕄) :
    iprop(owns (c : Thread nD τ) arg2 fullShare xl ∗ owns (c : Thread nD τ) arg3 fullShare xr ∗ (∃ d, owns (c : Thread nD τ) arg4 fullShare d)
        ∗ (iprop(owns (c : Thread nD τ) arg2 fullShare xl ∗ owns (c : Thread nD τ) arg3 fullShare xr
            ∗ owns (c : Thread nD τ) arg4 fullShare (out xl xr)) -∗ K ⟨⟩))
      ⊢ wp frame (wpE (defs₀ (F := F)) Variants.none c none) E (cc1__sim_kernel i arg2 harg2 arg3 harg3 arg4 harg4) K := by
  simp only [cc1__sim_kernel_eq_skeleton]; unfold cc1__sim_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The proof data of the launch on core `c`: the shared array held as its two halves, one per input window. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => out (iblk V c 0 t) (iblk V c 1 t)
  Φ _ := Pipeline.ΦA spec1 c
  q w := match w with
    | ⟨0, _⟩ => fullShare.left
    | ⟨1, _⟩ => fullShare.right
    | ⟨2, _⟩ => fullShare
  owed _ := 0

theorem A_eq (c : Dev nD) (w : Fin cfg1.W) : (dat V c).A w = V c (Pipeline.arrRef spec1 w) := by
  dsimp only [dat]

theorem after_l (c : Dev nD) (t : Fin cfg1.N) : (dat V c).after 0 t = iblk V c 0 t := by dsimp only [dat]
theorem after_r (c : Dev nD) (t : Fin cfg1.N) : (dat V c).after 1 t = iblk V c 1 t := by dsimp only [dat]
theorem after_out (c : Dev nD) (t : Fin cfg1.N) : (dat V c).after 2 t = out (iblk V c 0 t) (iblk V c 1 t) := by dsimp only [dat]

theorem share_l (c : Dev nD) : (dat V c).share 0 = fullShare.left := rfl
theorem share_r (c : Dev nD) : (dat V c).share 1 = fullShare.right := rfl
theorem share_out (c : Dev nD) : (dat V c).share 2 = fullShare := rfl

theorem before_l (c : Dev nD) (t : Fin cfg1.N) (d) : (dat V c).before 0 t d = iblk V c 0 t :=
  before_l_of V (dat V c) (A_eq V c 0) (after_l V c) t d
theorem before_r (c : Dev nD) (t : Fin cfg1.N) (d) : (dat V c).before 1 t d = iblk V c 1 t :=
  before_r_of V (dat V c) (A_eq V c 1) (after_r V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_l, before_r]
  rw [show (dat V c).Φ t.succ = (dat V c).Φ t.castSucc from rfl,
    show (dat V c).owesAt () t.succ = (dat V c).owesAt () t.castSucc from rfl,
    after_l, after_r, after_out]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Sim

end
-- ==== Proof.RunKI.lean ====
/-
  The whole program: the row-normalising launch, then the inner-product launch, from the launch of @main to its return.

  Between the two launches the core's unscoped buffers hold what @main was launched with, except the intermediate array,
  which holds what the first launch's write-backs leave (`V1`).  The second launch reads that one array through both its
  input windows, so at its entry the array is dealt into the two halves of its full share, one per window; its output
  array is held outright.  At the return the result array holds what the second launch's write-backs leave and the two
  argument arrays hold what they were launched with (`run_main`), for any float instance.
-/
import proofs.«135905_j29703993819980_1_alg».proof.Proof.NormKI
import proofs.«135905_j29703993819980_1_alg».proof.Proof.SimKI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch, -/
abbrev W0 : Dev nD → Valuation τ sig (Elt F) := fun c b => m ((c : Dev nD), b)
abbrev V0 : (c : Dev nD) → (b : Ref sig .tc) → Buf (Elt F) ((c : Thread nD τ).loc b) := fun c b => W0 m c b
/-- and after the first launch: its arrays at what its write-backs leave, every other buffer as launched. -/
def W1 (c : Dev nD) : Valuation τ sig (Elt F) :=
  Pipeline.withArrays spec0 c (W0 m c) fun w => (Norm.dat (V0 m) c).arrAt w cfg0.N
theorem W1_arr (c : Dev nD) (w : Fin cfg0.W) :
    W1 m c (Proc.devRef .tc (Pipeline.arrRef spec0 w)) = (Norm.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Norm.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- The first launch only reads the two arguments: they reach the second launch as launched. -/
theorem V1_main_arg0 (c : Dev nD) : V1 m c main_arg0 = m ((c : Thread nD τ).loc main_arg0) :=
  (W1_arr m c 1).trans (((Norm.dat (V0 m) c).arrAt_in 1 rfl _).trans (Norm.A_eq (V0 m) c 1))
theorem V1_main_arg1 (c : Dev nD) : V1 m c main_arg1 = m ((c : Thread nD τ).loc main_arg1) :=
  (W1_arr m c 0).trans (((Norm.dat (V0 m) c).arrAt_in 0 rfl _).trans (Norm.A_eq (V0 m) c 0))
/-- The intermediate array holds what the first launch's write-backs leave. -/
theorem V1_main_v0 (c : Dev nD) : V1 m c main_v0 = (Norm.dat (V0 m) c).arrAt 2 cfg0.N := W1_arr m c 2

/-! ## The proof data family and the thread states -/

abbrev adm : (p : Fin 2) → (pcfgs (F := F) p).Adm := fun p => (cfgs p).toPCfg_adm
/-- Each launch's proof data at its entry contents: a literal match on the launch. -/
def pdats : (p : Fin 2) → (c : Dev nD) → Dat τ (Elt F) Unit ℕ (UR sig nD τ) ℕ (Pipeline.pin (pcfgs (F := F)) adm p) c
  | ⟨0, _⟩ => fun c => Norm.dat (V0 m) c
  | ⟨1, _⟩ => fun c => Sim.dat (V1 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
/-- The last thread state: the second launch's arrays as it leaves them (the shared array still in halves), the two
    argument arrays, the generator register. -/
abbrev Tₙ (c : Dev nD) : sProp 𝕄 :=
  iprop((Sim.dat (V1 m) c).arrays ((Sim.dat (V1 m) c).arrAt · cfg1.N)
    ∗ Pipeline.unscopedRest (Ix := Unit) (Name := ℕ) (U := UR sig nD τ) (Lvl := ℕ) spec1 c (V1 m c) ∗ ∃ r, prngReg c r)

/-! ## The shared array dealt to the two windows -/

/-- The two distinct buffers behind the second launch's three windows, each whole at the full share, are its arrays at
    their shares: the intermediate array's full share is its left half and its right half. -/
theorem arrays_of_bufs (V : (c : Dev nD) → (b : Ref sig .tc) → Buf (Elt F) ((c : Thread nD τ).loc b)) (c : Dev nD) :
    (Pipeline.arrBufs (Ix := Unit) (Name := ℕ) (U := UR sig nD τ) (Lvl := ℕ) spec1 c (V c) : sProp 𝕄)
      ⊢ (Sim.dat V c).arrays ((Sim.dat V c).arrAt · 0) := by
  unfold Pipeline.arrBufs Pipeline.Dat.arrays
  rw [bigSep_eq_bigSepL_of_eq [main_v0, main_v1] (by decide) (by decide), bigSep_W1]
  rw [(arr_whole1 0).set_eq_univ, (arr_whole1 2).set_eq_univ]
  change iprop((((c : Thread nD τ).loc main_v0) ↦{fullShare} V c main_v0) ∗ (((c : Thread nD τ).loc main_v1) ↦{fullShare} V c main_v1)) ⊢ _
  iintro ⟨H0, H1⟩
  ihave H0' := (pointsTo_share (PosShare.mem_left_op_right fullShare)).1 $$ H0
  icases H0' with ⟨Hl, Hr⟩
  isplitl [Hl]; · iexact Hl
  isplitl [Hr]; · iexact Hr
  iexact H1

/-! ## The last thread state read against a final memory -/

/-- The second launch's arrays, held at their shares beside a final state, say what that state's memory holds at the
    result array. -/
theorem read_arrays (V : (c : Dev nD) → (b : Ref sig .tc) → Buf (Elt F) ((c : Thread nD τ).loc b)) (c : Dev nD)
    (s' : Phys nD τ sig (Elt F)) :
    iprop((Sim.dat V c).arrays ((Sim.dat V c).arrAt · cfg1.N) ∗ SI s')
      ⊢ (iprop(⌜s'.mem.mem ((c.tc : Thread nD τ).loc main_v1) = (Sim.dat V c).arrAt 2 cfg1.N⌝ ∗ SI s') : sProp 𝕄) := by
  have harr : ((Sim.dat V c).arrays ((Sim.dat V c).arrAt · cfg1.N) : sProp 𝕄)
      = bigSep Finset.univ fun w : Fin 3 =>
          (((c.tc : Thread nD τ).loc (Pipeline.arrRef spec1 w)) ↦{(Sim.dat V c).share w} (Sim.dat V c).arrAt w cfg1.N : sProp 𝕄) := by
    unfold Pipeline.Dat.arrays
    exact bigSep_congr fun w _ => by rw [(arr_whole1 w).set_eq_univ]
  rw [harr]
  iintro ⟨Ha, HSI⟩
  ihave Hr := (pointsTo_read_all' Finset.univ (fun w : Fin 3 => (c.tc : Thread nD τ).loc (Pipeline.arrRef spec1 w))
    ((Sim.dat V c).arrAt · cfg1.N) s' (Sim.dat V c).share) $$ [Ha HSI]
  · isplitl [Ha] <;> iassumption
  icases Hr with ⟨%ha, HSI⟩
  isplitr; · ipureintro; exact ha 2 (Finset.mem_univ _)
  iexact HSI

/-- The unscoped buffers the second launch does not move, held beside a final state, say what that state's memory holds at
    the two argument arrays. -/
theorem read_rest (V : (c : Dev nD) → (b : Ref sig .tc) → Buf (Elt F) ((c : Thread nD τ).loc b)) (c : Dev nD)
    (s' : Phys nD τ sig (Elt F)) :
    iprop(Pipeline.unscopedRest (Ix := Unit) (Name := ℕ) (U := UR sig nD τ) (Lvl := ℕ) spec1 c (V c) ∗ SI s')
      ⊢ (iprop(⌜s'.mem.mem ((c.tc : Thread nD τ).loc main_arg0) = V c main_arg0
          ∧ s'.mem.mem ((c.tc : Thread nD τ).loc main_arg1) = V c main_arg1⌝ ∗ SI s') : sProp 𝕄) := by
  unfold Pipeline.unscopedRest
  iintro ⟨Hr, HSI⟩
  ihave H := (pointsTo_read_all _ (fun b : Ref sig .tc => (c.tc : Thread nD τ).loc b) (V c) s') $$ [Hr HSI]
  · isplitl [Hr] <;> iassumption
  icases H with ⟨%h, HSI⟩
  isplitr; · ipureintro; exact ⟨h main_arg0 (by decide), h main_arg1 (by decide)⟩
  iexact HSI

/-! ## The launches as segments -/

set_option backward.isDefEq.respectTransparency.types false in
/-- The row-normalising launch over the thread state: entered from every unscoped buffer at the launch contents, left
    with the intermediate array at what its write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Norm.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The inner-product launch over the thread state: entered from every unscoped buffer at `V1`, the intermediate array
    dealt into its two halves; left at the last thread state. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Sim.body_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit : (unscopedBufs c (V1 m c) : sProp 𝕄)
        ⊢ iprop((pdats m 1 c).arrays ((pdats m 1 c).arrAt · 0)
            ∗ Pipeline.unscopedRest (Ix := Unit) (Name := ℕ) (U := UR sig nD τ) (Lvl := ℕ) spec1 c (V1 m c)) := by
      rw [Pipeline.unscopedBufs_split₀ cfgs 1 winFacts₀1.arr_unscoped c (V1 m c)]
      exact sep_mono (arrays_of_bufs (V1 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.Dat.owesAt Pipeline.owesWithin
    icases HO with ⟨%W, -, HO⟩; iexists W; iexact HO

/-! ## The run -/

set_option backward.isDefEq.respectTransparency.types false in
/-- From any memory with zero counters every weakly fair execution of @main terminates, nothing faulting; the result
    array ends at what the second launch's write-backs leave and the argument arrays as launched. -/
theorem run_main : θ_run defs (onTc (τ := τ) (main (F := F))) ⟨m, fun _ => 0, ρ⟩ (fun r => ∀ c : Dev nD,
      r.2.mem ((c.tc : Thread nD τ).loc main_v1) = (Sim.dat (V1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main
    [.region (reg0 m), .region (reg1 m)]
    (fun c Q => by rw [main_segs adm (pdats m) () 𝒱₀ L lv (reg0 m) (reg1 m) c])
    (by simp only [Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v1) = (Sim.dat (V1 m) c).arrAt 2 cfg1.N
      ∧ s.mem ((c.tc : Thread nD τ).loc main_arg0) = V1 m c main_arg0
      ∧ s.mem ((c.tc : Thread nD τ).loc main_arg1) = V1 m c main_arg1)
    (hfin := fun c s' => by
      iintro ⟨⟨Ha, Hrest, -⟩, HSI⟩
      ihave H1 := (read_arrays (V1 m) c s') $$ [Ha HSI]
      · isplitl [Ha] <;> iassumption
      icases H1 with ⟨%h1, HSI⟩
      ihave H2 := (read_rest (V1 m) c s') $$ [Hrest HSI]
      · isplitl [Hrest] <;> iassumption
      icases H2 with ⟨%h2, HSI⟩
      imodintro
      isplitr; · ipureintro; exact ⟨h1, h2.1, h2.2⟩
      iexact HSI)
    (hQ := fun s h c => ⟨(h c).1, (h c).2.1.trans (V1_main_arg0 m c), (h c).2.2.trans (V1_main_arg1 m c)⟩)

end Cert.KernelIdeal.Whole

end
-- ==== Proof.RefRun.lean ====
/-
  The reference program's run and its stages read at an index, as generated; this module only brings them in.
-/
import proofs.«135905_j29703993819980_1_alg».proof.Proof.Gen.ReferenceIdeal.Run
import proofs.«135905_j29703993819980_1_alg».proof.Proof.Gen.ReferenceIdeal.Read
-- ==== Proof.Spec.lean ====
/-
  The function both programs compute, index by index on the extended reals, stated over the argument arrays alone.

  Row `n` of the features is scaled entry by entry by the first weight row, clamped below at zero, and scaled by the
  second weight row (`scaled`).  The row is then divided by its Euclidean length, the length clamped below at the
  pattern `0x2B8CBCCC` (`rowLen`, `normed`).  Entry `(n, m)` of the result is the inner product of normalised rows
  `n` and `m`, clamped below at zero (`sims`).  No step rearranges a product over a sum, so nothing here asks the
  entries to be finite.
-/
import Idealize.ShloMosaic.PureOps.Ideal
import Idealize.ShloMosaic.Lib.ValueIdx

noncomputable section

namespace Cert.RowCosine

open Idealize.ShloMosaic Idealize.ShloMosaic.ValueIdx

/-- The features' shape, the weights' shape, and the result's. -/
abbrev SFeat : Shape := ⟨2, ![8192, 512]⟩
abbrev SWts : Shape := ⟨2, ![2, 512]⟩
abbrev SSim : Shape := ⟨2, ![8192, 8192]⟩

/-- The zero pattern and the clamp of the row length, as the extended reals they denote. -/
abbrev zeroLit : EReal := Ideal.ofBits .f32 0x00000000#32
abbrev lenFloor : EReal := Ideal.ofBits .f32 0x2B8CBCCC#32

/-- Entry `(n, d)` after the two scalings with the clamp at zero between them. -/
def scaled (x : SFeat.Idx → EReal) (w : SWts.Idx → EReal) (n : Fin 8192) (d : Fin 512) : EReal :=
  max (x (ix2 n d) * w (ix2 (0 : Fin 2) d)) zeroLit * w (ix2 (1 : Fin 2) d)

/-- The clamped Euclidean length of row `n`. -/
def rowLen (x : SFeat.Idx → EReal) (w : SWts.Idx → EReal) (n : Fin 8192) : EReal :=
  max (Ideal.sqrt (∑ d : Fin 512, scaled x w n d * scaled x w n d)) lenFloor

/-- The normalised rows, as one array. -/
def normed (x : SFeat.Idx → EReal) (w : SWts.Idx → EReal) : SFeat.Idx → EReal :=
  fun i => Ideal.div (scaled x w (i 0) (i 1)) (rowLen x w (i 0))

/-- The clamped inner products of the rows of `z`, as one array. -/
def sims (z : SFeat.Idx → EReal) : SSim.Idx → EReal :=
  fun i => max (∑ k : Fin 512, z (ix2 (i 0) k) * z (ix2 (i 1) k)) zeroLit

/-- The whole function of the two arguments. -/
def result (x : SFeat.Idx → EReal) (w : SWts.Idx → EReal) : SSim.Idx → EReal := sims (normed x w)

theorem normed_apply (x : SFeat.Idx → EReal) (w : SWts.Idx → EReal) (n : Fin 8192) (d : Fin 512) :
    normed x w (ix2 n d) = Ideal.div (scaled x w n d) (rowLen x w n) := rfl

theorem sims_apply (z : SFeat.Idx → EReal) (n m : Fin 8192) :
    sims z (ix2 n m) = max (∑ k : Fin 512, z (ix2 n k) * z (ix2 m k)) zeroLit := rfl

end Cert.RowCosine

end
-- ==== Proof.RefValue.lean ====
/-
  The reference program's result is the specification.

  The reference computes its result in stages: the two weight rows are cut out of the weight array and spread over
  all feature rows; the features are multiplied by the first row, clamped below at zero and multiplied by the second;
  the squares of a row are summed, the root of the sum is clamped below, and the row is divided by it; the result is
  the matrix of inner products of the divided rows, clamped below at zero.  Read at an index, every stage is the
  corresponding function of the specification (`Cert.RowCosine.scaled`, `rowLen`, `normed`, `sims`), on the extended reals
  and with no condition on the entries: each lemma below says so of one stage, and `ref_eq` puts them together.
-/
import proofs.«135905_j29703993819980_1_alg».proof.Proof.RefRun
import proofs.«135905_j29703993819980_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.RowCosine
open Idealize.ShloMosaic Idealize.ShloMosaic.TcCoe Idealize.SL.Sem Idealize.ShloMosaic.ValueIdx

/-- The first weight row, cut out, flattened and spread over every feature row: at entry `(n, d)` it is the weight
    array's entry `(0, d)`. -/
theorem row0_apply (w : SWts.Idx → EReal) (n : Fin 8192) (d : Fin 512) :
    val_main_v3 (F := Ideal) w (ix2 n d) = w (ix2 (0 : Fin 2) d) := by
  rw [val_main_v3_apply, val_main_v2_apply, val_main_v1_apply, val_main_v0_apply]
  refine congrArg w (funext fun a => Fin.ext ?_)
  match a with
  | ⟨0, _⟩ => rfl
  | ⟨1, _⟩ => exact Nat.mod_eq_of_lt d.isLt

/-- The second weight row, likewise: at entry `(n, d)` it is the weight array's entry `(1, d)`. -/
theorem row1_apply (w : SWts.Idx → EReal) (n : Fin 8192) (d : Fin 512) :
    val_main_v9 (F := Ideal) w (ix2 n d) = w (ix2 (1 : Fin 2) d) := by
  rw [val_main_v9_apply, val_main_v8_apply, val_main_v7_apply, val_main_v6_apply]
  refine congrArg w (funext fun a => Fin.ext ?_)
  match a with
  | ⟨0, _⟩ => rfl
  | ⟨1, _⟩ => exact Nat.mod_eq_of_lt d.isLt

/-- The stage after the two multiplications and the clamp between them holds the specification's scaled entry. -/
theorem scaled_apply (x : SFeat.Idx → EReal) (w : SWts.Idx → EReal) (n : Fin 8192) (d : Fin 512) :
    val_main_v10 (F := Ideal) x w (ix2 n d) = scaled x w n d := by
  rw [val_main_v10_apply, val_main_v5_apply, val_main_v4_apply, val_main_call0_v0_apply, val_main_call0_cst_apply,
    row0_apply, row1_apply]
  simp only [Ideal.mulf_def, Ideal.maximumf_def, Ideal.ofBits_def]
  rfl

/-- The sum stage holds, for row `n`, the sum over the row of the squares of the scaled entries: the sum starts from the
    zero pattern, which denotes zero, and zero added to an extended real changes nothing. -/
theorem sumsq_apply (x : SFeat.Idx → EReal) (w : SWts.Idx → EReal) (n : Fin 8192) :
    val_main_v12 (F := Ideal) x w (ix1 n) = ∑ d : Fin 512, scaled x w n d * scaled x w n d := by
  rw [val_main_v12_apply, val_main_cst_apply, Ideal.ofBits_def, Ideal.ofBits_zero_f32, zero_add]
  refine Finset.sum_congr rfl fun k _ => ?_
  have hk : idx_main_v12 (ix1 n) k = ix2 n k :=
    funext fun a => Fin.ext (by match a with | ⟨0, _⟩ => rfl | ⟨1, _⟩ => rfl)
  rw [hk, val_main_v11_apply, scaled_apply, Ideal.mulf_def]

/-- The divisor stage, spread back over the row, holds the specification's clamped length of row `n` at every entry of
    that row. -/
theorem rowLen_apply (x : SFeat.Idx → EReal) (w : SWts.Idx → EReal) (n : Fin 8192) (d : Fin 512) :
    val_main_v17 (F := Ideal) x w (ix2 n d) = rowLen x w n := by
  have h13 : idx_main_v13 (idx_main_v17 (ix2 n d)) = ix1 n :=
    funext fun a => Fin.ext (by match a with | ⟨0, _⟩ => rfl)
  rw [val_main_v17_apply, val_main_v16_apply, val_main_v14_apply, val_main_v13_apply, val_main_v15_apply,
    val_main_cst_0_apply, h13, sumsq_apply]
  simp only [Ideal.hostUnary_sqrt_def, Ideal.maximumf_def, Ideal.ofBits_def]
  rfl

/-- The quotient stage is the specification's array of normalised rows. -/
theorem normed_eq (x : SFeat.Idx → EReal) (w : SWts.Idx → EReal) :
    val_main_v18 (F := Ideal) x w = normed x w := by
  funext i
  obtain ⟨n, d, rfl⟩ : ∃ (n : Fin 8192) (d : Fin 512), i = ix2 n d := ⟨i 0, i 1, eq_ix2 i⟩
  rw [val_main_v18_apply, scaled_apply, rowLen_apply, Ideal.hostDivf_def, normed_apply]

/-- The last stage is the specification's result: entry `(n, m)` of the contraction is the sum over `k` of the products of
    the normalised entries `(n, k)` and `(m, k)`, and the final clamp is the specification's. -/
theorem result_eq (x : SFeat.Idx → EReal) (w : SWts.Idx → EReal) :
    val_main_v20 (F := Ideal) x w = result x w := by
  funext i
  obtain ⟨n, m', rfl⟩ : ∃ (n m' : Fin 8192), i = ix2 n m' := ⟨i 0, i 1, eq_ix2 i⟩
  rw [val_main_v20_apply, val_main_v19_apply, val_main_call1_v0_apply, val_main_call1_cst_apply, normed_eq]
  unfold result
  rw [sims_apply, Ideal.maximumf_def, Ideal.ofBits_def]
  refine congrArg (max · zeroLit) (Finset.sum_congr rfl fun k _ => ?_)
  have hl : lidx_main_v19 (ix2 n m') k = ix2 n k :=
    funext fun a => Fin.ext (by match a with | ⟨0, _⟩ => rfl | ⟨1, _⟩ => rfl)
  have hr : ridx_main_v19 (ix2 n m') k = ix2 m' k :=
    funext fun a => Fin.ext (by match a with | ⟨0, _⟩ => rfl | ⟨1, _⟩ => rfl)
  rw [hl, hr]

/-- The reference's run ends with its result array at the specification's function of the two argument arrays as they
    were at the launch. -/
theorem ref_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v20 (F := Ideal) m c
      = Cert.RowCosine.result
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1)) :=
  (val_main_v20_eq (F := Ideal) m c).trans (result_eq _ _)

end Cert.ReferenceIdeal.RefValue

end
-- ==== Proof.NormValue.lean ====
/-
  What the row-normalising launch leaves in its output array, on the extended reals.

  The launch runs over eight grid points. Point `t` is handed the whole weight array (both rows) and rows
  `1024 t … 1024 t + 1023` of the features, and writes back the same rows of the output. Inside a block, entry `(p, q)` of
  what is stored depends on row `p` of the block alone: the row is scaled entry by entry by the first weight row, clamped below
  at zero, scaled by the second weight row, and divided by its own Euclidean length, the length clamped below at a fixed
  positive word. The narrowing of the format before the store changes nothing on the extended reals.

  Three steps. First the arithmetic at one entry of a block, over any three vectors of the block's shapes: the layout
  operations (a weight row laid along every row, a column of row sums laid along every column) read at an index, the sum
  along a row as a sum over 512 coordinates. Then which entries of the argument arrays a block holds: the index maps are
  decided once over the eight points, and a block's coordinate in the array is always the block index times the block's
  size plus the coordinate inside the block. Last the cover: row `r` of the array lies in the block of point `r / 1024`, every
  point writes its block back, and every block written is a block of one and the same function of the two argument arrays,
  so the array ends holding that function.
-/
import proofs.«135905_j29703993819980_1_alg».proof.Proof.NormKI
import proofs.«135905_j29703993819980_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NormValue

open Cert.KernelIdeal Cert.KernelIdeal.Gen Cert.KernelIdeal.Norm Cert.RowCosine
open Idealize.ShloMosaic Idealize.ShloMosaic.TcCoe Idealize.ShloMosaic.ValueIdx Idealize.SL.Sem
open Idealize.ShloMosaic.Pipeline (Dat)

/-! ## Two layout operations on a column, and the index a row sum runs over -/

/-- A vector of `a` entries cast to one column `[a, 1]` reads, at `(i, u)`, the vector at `i`, whatever the unit coordinate. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` laid along every column of `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The entries of a block that a sum along the rows collects into entry `p` of its result are the entries `(p, k)` of row `p`. -/
theorem lift_row (h : S1024x512.Reduces [1] S1024) (p : Fin 1024) (k : Fin 512) : h.lift (ix1 p) k = ix2 p k := by
  funext c; apply Fin.ext
  match c with
  | ⟨0, _⟩ => rfl
  | ⟨1, _⟩ => rfl

/-- So a sum along the rows of a block, read at `p`, is the sum of row `p`'s 512 entries. -/
theorem rowSum_apply (Y : FVec Ideal S1024x512 .f32) (hφ : FKind.Formats .f32)
    (hacc : (0x00000000#32 : BitVec (FTy.bits .f32)) = FKind.add.neutral .f32 hφ) (p : Fin 1024) :
    multiReduction (F := Ideal) .add [1] S1024 Y 0x00000000#32 reduces_S1024x512_S1024 hφ hacc (ix1 p) = ∑ d : Fin 512, Y (ix2 p d) :=
  (Ideal.multiReduction_add_single Y 0x00000000#32 reduces_S1024x512_S1024 hφ hacc (ix1 p)).trans
    (Finset.sum_congr rfl fun k _ => congrArg Y (lift_row _ p k))

/-! ## The body's arithmetic at one entry of the block -/

/-- One weight row laid along every row of the block (through the two casts the body makes of it): entry `(p, d)` is the
    row's entry `d`. -/
theorem wrow_apply (v : Vec Ideal S1x512 .f32) (p : Fin 1024) (d : Fin 512) :
    broadcastTo S1024x512 (shapeCast S1x512 (shapeCast S512 v shapeCasts_S1x512_S512) shapeCasts_S512_S1x512)
      broadcasts_S1x512_S1024x512 (ix2 p d) = v (ix2 (0 : Fin 1) d) := by
  rw [shapeCast_shapeCast]
  exact broadcastTo_1b_ab_apply v _ p d

/-- The block after the two scalings with the clamp at zero between them, as the body forms it. -/
def scaledBlk (v0 : Vec Ideal S1024x512 .f32) (v1 v8 : Vec Ideal S1x512 .f32) : FVec Ideal S1024x512 .f32 :=
  mulf (maximumf (mulf v0 (broadcastTo S1024x512 (shapeCast S1x512 (shapeCast S512 v1 shapeCasts_S1x512_S512) shapeCasts_S512_S1x512)
        broadcasts_S1x512_S1024x512)) (broadcast S1024x512 (FloatOps.ofBits .f32 0x00000000#32)))
    (broadcastTo S1024x512 (shapeCast S1x512 (shapeCast S512 v8 shapeCasts_S1x512_S512) shapeCasts_S512_S1x512)
      broadcasts_S1x512_S1024x512)

/-- Entry `(p, d)` of it depends on the block's entry `(p, d)` and on entry `d` of each weight row. -/
theorem scaledBlk_apply (v0 : Vec Ideal S1024x512 .f32) (v1 v8 : Vec Ideal S1x512 .f32) (p : Fin 1024) (d : Fin 512) :
    scaledBlk v0 v1 v8 (ix2 p d)
      = max (v0 (ix2 p d) * v1 (ix2 (0 : Fin 1) d)) (Ideal.ofBits .f32 0x00000000#32) * v8 (ix2 (0 : Fin 1) d) := by
  unfold scaledBlk
  rw [mulf_apply, maximumf_apply, mulf_apply, broadcast_apply, wrow_apply, wrow_apply]
  rfl

/-- The body's payload is the scaled block divided, row by row, by the row's clamped length. -/
theorem pay_eq (v0 : Vec Ideal S1024x512 .f32) (v1 v8 : Vec Ideal S1x512 .f32) :
    k0_pay1 v0 v1 v8 = truncf .bf16 (divf (scaledBlk v0 v1 v8)
      (broadcastTo S1024x512 (maximumf (sqrt (shapeCast S1024x1
          (multiReduction (F := Ideal) .add [1] S1024 (mulf (scaledBlk v0 v1 v8) (scaledBlk v0 v1 v8)) 0x00000000#32
            reduces_S1024x512_S1024 (.inl rfl) rfl) shapeCasts_S1024_S1024x1))
        (broadcast S1024x1 (FloatOps.ofBits .f32 0x2B8CBCCC#32))) broadcasts_S1024x1_S1024x512)) bitsLt_bf16_f32 := rfl

/-- THE PAYLOAD AT AN ENTRY: entry `(p, q)` of what the body stores is the scaled entry divided by the Euclidean length of
    scaled row `p`, the length clamped below; it depends on row `p` of the block of features and on the two weight rows. -/
theorem pay_apply (v0 : Vec Ideal S1024x512 .f32) (v1 v8 : Vec Ideal S1x512 .f32) (p : Fin 1024) (q : Fin 512) :
    k0_pay1 v0 v1 v8 (ix2 p q)
      = Ideal.div (scaledBlk v0 v1 v8 (ix2 p q))
          (max (Ideal.sqrt (∑ d : Fin 512, scaledBlk v0 v1 v8 (ix2 p d) * scaledBlk v0 v1 v8 (ix2 p d)))
            (Ideal.ofBits .f32 0x2B8CBCCC#32)) := by
  rw [pay_eq, truncf_apply, divf_apply, broadcastTo_a1_ab_apply, maximumf_apply, broadcast_apply]
  show Ideal.div _ (max (Ideal.sqrt (shapeCast S1024x1 _ shapeCasts_S1024_S1024x1 (ix2 p (0 : Fin 1)))) _) = _
  rw [shapeCast_a_a1_apply]
  refine congrArg (fun s => Ideal.div _ (max (Ideal.sqrt s) _)) ?_
  exact rowSum_apply _ _ _ p

/-- THE PAYLOAD AGAINST THE WHOLE ARRAYS: if row `p` of the block is row `n` of the features and the two loaded rows are the
    two rows of the weights, entry `(p, q)` of what the body stores is entry `(n, q)` of the normalised rows. -/
theorem pay_normed (X : S8192x512.Idx → EReal) (W : S2x512.Idx → EReal)
    (xr : Vec Ideal S1024x512 .f32) (w0 w1 : Vec Ideal S1x512 .f32) (n : Fin 8192) (p : Fin 1024) (q : Fin 512)
    (hx : ∀ d : Fin 512, xr (ix2 p d) = X (ix2 n d))
    (h0 : ∀ d : Fin 512, w0 (ix2 (0 : Fin 1) d) = W (ix2 (0 : Fin 2) d))
    (h1 : ∀ d : Fin 512, w1 (ix2 (0 : Fin 1) d) = W (ix2 (1 : Fin 2) d)) :
    k0_pay1 xr w0 w1 (ix2 p q) = normed X W (ix2 n q) := by
  rw [normed_apply, pay_apply]
  unfold rowLen scaled
  simp only [scaledBlk_apply, hx, h0, h1]

/-! ## Which rows a block holds -/

variable (V : (c : Dev nD) → (b : Ref sig .tc) → Buf (Elt Ideal) ((c : Thread nD τ).loc b))

theorem hz : (![0, 0] : Fin 2 → Nat) = fun _ => 0 := funext fun a => by fin_cases a <;> rfl

/-- The three index maps, decided once over the eight points: the weight window's block is block `(0, 0)` at every point (the
    whole array), the features' and the output's block at point `t` is block `(t, 0)`. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `p` of point `t`'s block of 1024 rows is row `1024 t + p` of the array. -/
def rowOf (t : Fin cfg0.N) (p : Fin 1024) : Fin 8192 :=
  ⟨t.val * 1024 + p.val, by have := t.isLt; have hN : cfg0.N = 8 := N_0; have := p.isLt; omega⟩

/-- The features' block at point `t`: its entry `(p, q)` is the features' entry `(1024 t + p, q)`. -/
theorem xblk_apply (c : Dev nD) (t : Fin cfg0.N) (p : Fin 1024) (q : Fin 512) :
    (iblk V c 1 t : Vec Ideal S1024x512 .f32) (ix2 p q) = (V c main_arg0 : S8192x512.Idx → EReal) (ix2 (rowOf t p) q) := by
  obtain ⟨-, -, e0, e1, -, -⟩ := idx_facts t
  unfold iblk
  rw [View.read_apply]
  show V c main_arg0 _ = V c main_arg0 _
  congr 1
  funext a
  apply Fin.ext
  match a with
  | ⟨0, _⟩ => show win0_1.index t (0 : Fin 2) * 1024 + 1 * p.val = t.val * 1024 + p.val; rw [e0]; omega
  | ⟨1, _⟩ => show win0_1.index t (1 : Fin 2) * 512 + 1 * q.val = q.val; rw [e1]; omega

/-- The weights' block at every point is the whole weight array. -/
theorem wblk_apply (c : Dev nD) (t : Fin cfg0.N) (r : Fin 2) (d : Fin 512) :
    (iblk V c 0 t : Vec Ideal S2x512 .f32) (ix2 r d) = (V c main_arg1 : S2x512.Idx → EReal) (ix2 r d) := by
  obtain ⟨e0, e1, -, -, -, -⟩ := idx_facts t
  unfold iblk
  rw [View.read_apply]
  show V c main_arg1 _ = V c main_arg1 _
  congr 1
  funext a
  apply Fin.ext
  match a with
  | ⟨0, _⟩ => show win0_0.index t (0 : Fin 2) * 2 + 1 * r.val = r.val; rw [e0]; omega
  | ⟨1, _⟩ => show win0_0.index t (1 : Fin 2) * 512 + 1 * d.val = d.val; rw [e1]; omega

/-- The body's load of the first weight row reads row 0 of the weights, -/
theorem ld_w0 (xw : Vec Ideal S2x512 .f32) (d : Fin 512) :
    (View.ld xw rW0 : Vec Ideal S1x512 .f32) (ix2 (0 : Fin 1) d) = xw (ix2 (0 : Fin 2) d) := by
  show xw (rW0.idx (ix2 (0 : Fin 1) d)) = _
  congr 1; funext a; apply Fin.ext
  match a with
  | ⟨0, _⟩ => rfl
  | ⟨1, _⟩ => show 0 + 1 * d.val = d.val; omega

/-- and its load of the second reads row 1. -/
theorem ld_w1 (xw : Vec Ideal S2x512 .f32) (d : Fin 512) :
    (View.ld xw rW1 : Vec Ideal S1x512 .f32) (ix2 (0 : Fin 1) d) = xw (ix2 (1 : Fin 2) d) := by
  show xw (rW1.idx (ix2 (0 : Fin 1) d)) = _
  congr 1; funext a; apply Fin.ext
  match a with
  | ⟨0, _⟩ => rfl
  | ⟨1, _⟩ => show 0 + 1 * d.val = d.val; omega

/-- Entry `(p, q)` of the output's block at point `t` sits in the array at `(1024 t + p, q)`. -/
theorem oblk_emb (t : Fin cfg0.N) (p : Fin 1024) (q : Fin 512) :
    ((cfg0.win 2).blk t).view.emb (ix2 p q) = (ix2 (rowOf t p) q : S8192x512.Idx) := by
  obtain ⟨-, -, -, -, e0, e1⟩ := idx_facts t
  funext a; apply Fin.ext
  match a with
  | ⟨0, _⟩ => show win0_2.index t (0 : Fin 2) * 1024 + 1 * p.val = t.val * 1024 + p.val; rw [e0]; omega
  | ⟨1, _⟩ => show win0_2.index t (1 : Fin 2) * 512 + 1 * q.val = q.val; rw [e1]; omega

/-! ## From blocks to the array -/

/-- WHAT POINT `t` WRITES BACK is block `t` of the normalised rows of the two argument arrays: the rows of the block are rows
    `1024 t … 1024 t + 1023` of the features, each scaled by the whole weight rows and divided by its own length. -/
theorem flushed_eq (c : Dev nD) (t : Fin cfg0.N) :
    (dat (F := Ideal) V c).flushed 2 t
      = ((cfg0.win 2).blk t).view.read (Elt Ideal) (normed (V c main_arg0) (V c main_arg1)) := by
  show (cfg0.win 2).cut (grid0.coords t) ((dat V c).after 2 t) = _
  rw [after_out]
  unfold out
  rw [View.canon_unit_zero hz]
  rw [View.ld_unit_zero (S := S1024x512) hz]
  refine funext fun (j : S1024x512.Idx) => ?_
  obtain ⟨p, q, rfl⟩ : ∃ (p : Fin 1024) (q : Fin 512), j = ix2 p q := ⟨j 0, j 1, eq_ix2 j⟩
  show k0_pay1 (iblk V c 1 t) (View.ld (iblk V c 0 t) rW0) (View.ld (iblk V c 0 t) rW1) (ix2 p q)
      = normed (V c main_arg0) (V c main_arg1) (((cfg0.win 2).blk t).view.emb (ix2 p q))
  rw [oblk_emb]
  exact pay_normed (V c main_arg0) (V c main_arg1) (iblk V c 1 t) (View.ld (iblk V c 0 t) rW0) (View.ld (iblk V c 0 t) rW1)
    (rowOf t p) p q (fun d => xblk_apply V c t p d)
    (fun d => (ld_w0 (iblk V c 0 t) d).trans (wblk_apply V c t 0 d))
    (fun d => (ld_w1 (iblk V c 0 t) d).trans (wblk_apply V c t 1 d))

/-- An index of the array is in point `t`'s block iff each coordinate is in the block's range on its axis. -/
theorem mem_blk (t : Fin cfg0.N) (i : S8192x512.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v0).slice (win0_2.rect t)).set ↔ _
  rw [View.set_slice_whole, Rect.mem_set_unit]
  exact Iff.rfl

/-- Every entry of the array is in some point's block: row `r` is written at point `r / 1024`. -/
theorem covered (i : S8192x512.Idx) :
    ∃ t : Fin cfg0.N, (cfg0.win 2).flush t = true ∧ i ∈ ((cfg0.win 2).blk t).view.set := by
  have hi0 : (i 0).val < 8192 := (i 0).isLt
  have hi1 : (i 1).val < 512 := (i 1).isLt
  have hN : cfg0.N = 8 := N_0
  obtain ⟨t, ht⟩ : ∃ t : Fin cfg0.N, t.val = (i 0).val / 1024 := ⟨⟨(i 0).val / 1024, by omega⟩, rfl⟩
  obtain ⟨-, -, -, -, e0, e1⟩ := idx_facts t
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    rw [e0]; omega
  | ⟨1, _⟩ =>
    show win0_2.index t (1 : Fin 2) * 512 ≤ (i 1).val ∧ (i 1).val < win0_2.index t (1 : Fin 2) * 512 + 512
    rw [e1]; omega

/-- THE ARRAY the row-normalising launch leaves: the normalised rows of the features under the two weight rows, entry by
    entry. -/
theorem final (c : Dev nD) :
    (Cert.KernelIdeal.Norm.dat (F := Ideal) V c).arrAt 2 cfg0.N = Cert.RowCosine.normed (V c main_arg0) (V c main_arg1) :=
  (dat (F := Ideal) V c).arrAt_eq_of_cover 2 (normed (V c main_arg0) (V c main_arg1)) (fun t _ => flushed_eq V c t) covered

end Cert.KernelIdeal.NormValue

end
-- ==== Proof.SimValue.lean ====
/-
  What the inner-product launch leaves in its output array, on the extended reals.

  The launch runs over an 8 × 8 grid.  At the point `(i, j)` its first input block holds rows `1024 i … 1024 i + 1023`
  of an array `z` of 8192 rows of 512 entries, its second input block holds rows `1024 j … 1024 j + 1023` of the SAME
  array, and the point writes block `(i, j)`, 1024 × 1024, of the result.  Entry `(p, q)` of that block is
  `max (∑ k, a (p, k) · b (q, k)) 0`: the product of the first block with the transpose of the second, accumulated from
  zero, then clamped below at zero.  On the extended reals nothing is rounded, so the sum is the plain sum over the 512
  columns.  The entry therefore depends on row `1024 i + p` and row `1024 j + q` of `z` and on nothing else: it is entry
  `(1024 i + p, 1024 j + q)` of the array of clamped inner products of the rows of `z`.  The 64 blocks tile the result —
  entry `(r, s)` lies in block `(r / 1024, s / 1024)` — so after the launch the result IS that array.
-/
import proofs.«135905_j29703993819980_1_alg».proof.Proof.SimKI
import proofs.«135905_j29703993819980_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.SimValue

open Cert.KernelIdeal Cert.KernelIdeal.Gen Cert.RowCosine
open Idealize.ShloMosaic Idealize.ShloMosaic.TcCoe Idealize.ShloMosaic.ValueIdx
open Idealize.SL.Sem
open Idealize.ShloMosaic.Pipeline (Dat)

/-! ## One entry of the product of a block of rows with a transposed block of rows -/

/-- The left factor of the product is read at the output's row … -/
theorem lhs_dot_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
/-- … and at the summation position along its columns; -/
theorem lhs_dot_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
/-- the right factor, 512 × 1024, at the summation position along its rows … -/
theorem rhs_dot_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
/-- … and at the output's column. -/
theorem rhs_dot_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- So an entry of a product accumulated from zero is the sum over the 512 summation positions of the factors' products. -/
theorem matmul_ix (x : FVec Ideal S1024x512 .bf16) (y : FVec Ideal S512x1024 .bf16) (p q : Fin 1024) :
    matmul dot_S1024x512_S512x1024_S1024x1024_1_0_0_1_n_n none x y (constant (F := Ideal) S1024x1024 .f32 0x00000000#32) (ix2 p q)
      = ∑ k : Fin 512, x (ix2 p k) * y (ix2 k q) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact lhs_dot_0 _ _
    | ⟨1, _⟩ => exact (lhs_dot_1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (rhs_dot_0 _ _).trans hk
    | ⟨1, _⟩ => exact rhs_dot_1 _ _)
  rw [el, er]

/-- An entry `(k, q)` of the transpose is entry `(q, k)` of the block of rows. -/
theorem transpose_ix {α : Type} (x : S1024x512.Idx → α) (k : Fin 512) (q : Fin 1024) :
    transpose S512x1024 [1, 0] x transposes_S1024x512_p1_0_S512x1024 (ix2 k q) = x (ix2 q k) :=
  transpose_apply [1, 0] x transposes_S1024x512_p1_0_S512x1024 (ix2 k q) (ix2 q k) fun b => by
    match b with
    | ⟨0, _⟩ => rfl
    | ⟨1, _⟩ => rfl

/-- An entry of the payload: rows `p` of the first block and `q` of the second multiplied entry by entry along the 512
    columns and summed, the sum clamped below at the zero pattern. -/
theorem pay_ix (a b : Vec Ideal S1024x512 .bf16) (p q : Fin 1024) :
    Gen.k1_pay1 a b (ix2 p q) = max (∑ k : Fin 512, a (ix2 p k) * b (ix2 q k)) (Ideal.ofBits .f32 0x00000000#32) := by
  unfold Gen.k1_pay1
  dsimp only
  rw [shapeCast_self, shapeCast_self, maximumf_apply, matmul_ix]
  refine congrArg₂ max (Finset.sum_congr rfl fun k _ => ?_) rfl
  rw [transpose_ix]

/-! ## One entry of an output block, from the rows of the array the two input blocks hold -/

/-- An entry of the payload of two blocks of rows, when row `p` of the first block is row `n` of an array `z` and row
    `q` of the second is row `m` of the same array: the clamped inner product of rows `n` and `m` of `z`. -/
theorem pay_rows (z : SFeat.Idx → EReal) (a b : Vec Ideal S1024x512 .bf16) (p q : Fin 1024) (n m : Fin 8192)
    (ha : ∀ k : Fin 512, a (ix2 p k) = z (ix2 n k)) (hb : ∀ k : Fin 512, b (ix2 q k) = z (ix2 m k)) :
    Gen.k1_pay1 a b (ix2 p q) = sims z (ix2 n m) := by
  rw [pay_ix, sims_apply]
  exact congrArg₂ max (Finset.sum_congr rfl fun k _ => by rw [ha k, hb k]) rfl

/-! ## The three index maps over the grid -/

/-- The zero offsets of a whole-block access, however they are spelt. -/
theorem hz : (![0, 0] : Fin 2 → Nat) = fun _ => 0 := funext fun a => by fin_cases a <;> rfl

/-- At every grid point the first input window is on the block of rows whose number is the output block's row number, the
    second on the block whose number is the output block's column number; neither moves along the 512 columns; and the
    output block's two numbers are below 8. -/
theorem idx_facts : ∀ t : Fin cfg1.N,
    win1_0.index t (0 : Fin 2) = win1_2.index t (0 : Fin 2) ∧ win1_0.index t (1 : Fin 2) = 0
    ∧ win1_1.index t (0 : Fin 2) = win1_2.index t (1 : Fin 2) ∧ win1_1.index t (1 : Fin 2) = 0
    ∧ win1_2.index t (0 : Fin 2) ≤ 7 ∧ win1_2.index t (1 : Fin 2) ≤ 7 :=
  (by decide +kernel : ∀ t : Fin grid1.N, _)

/-- Every pair of block numbers below 8 is the output block of some grid point. -/
theorem idx_onto : ∀ (q0 q1 : Fin 8), ∃ t : Fin cfg1.N, win1_2.index t = ![q0.val, q1.val] :=
  (by decide +kernel : ∀ (q0 q1 : Fin 8), ∃ t : Fin grid1.N, win1_2.index t = ![q0.val, q1.val])

variable (V : (c : Dev nD) → (b : Ref sig .tc) → Buf (Elt Ideal) ((c : Thread nD τ).loc b))

/-- Row `p` of the first window's block at point `t` is row (row number of the output block) × 1024 + `p` of the array. -/
theorem iblk_l_apply (c : Dev nD) (t : Fin cfg1.N) (p : Fin 1024) (k : Fin 512) (n : Fin 8192)
    (hn : n.val = win1_2.index t (0 : Fin 2) * 1024 + p.val) :
    (Sim.iblk V c 0 t : Vec Ideal S1024x512 .bf16) (ix2 p k) = (V c main_v0 : SFeat.Idx → EReal) (ix2 n k) := by
  obtain ⟨e0, e1, -⟩ := idx_facts t
  unfold Sim.iblk
  rw [View.read_apply]
  show V c main_v0 _ = V c main_v0 _
  congr 1
  funext a
  apply Fin.ext
  match a with
  | ⟨0, _⟩ => show win1_0.index t (0 : Fin 2) * 1024 + 1 * p.val = n.val; rw [e0, hn]; omega
  | ⟨1, _⟩ => show win1_0.index t (1 : Fin 2) * 512 + 1 * k.val = k.val; rw [e1]; omega

/-- Row `q` of the second window's block at point `t` is row (column number of the output block) × 1024 + `q` of the array. -/
theorem iblk_r_apply (c : Dev nD) (t : Fin cfg1.N) (q : Fin 1024) (k : Fin 512) (m : Fin 8192)
    (hm : m.val = win1_2.index t (1 : Fin 2) * 1024 + q.val) :
    (Sim.iblk V c 1 t : Vec Ideal S1024x512 .bf16) (ix2 q k) = (V c main_v0 : SFeat.Idx → EReal) (ix2 m k) := by
  obtain ⟨-, -, e0, e1, -⟩ := idx_facts t
  unfold Sim.iblk
  rw [View.read_apply]
  show V c main_v0 _ = V c main_v0 _
  congr 1
  funext a
  apply Fin.ext
  match a with
  | ⟨0, _⟩ => show win1_1.index t (0 : Fin 2) * 1024 + 1 * q.val = m.val; rw [e0, hm]; omega
  | ⟨1, _⟩ => show win1_1.index t (1 : Fin 2) * 512 + 1 * k.val = k.val; rw [e1]; omega

/-- What point `t` writes back is its block of the array of clamped inner products of the rows. -/
theorem flushed_eq (c : Dev nD) (t : Fin cfg1.N) :
    (Sim.dat (F := Ideal) V c).flushed 2 t = ((cfg1.win 2).blk t).view.read (Elt Ideal) (sims (V c main_v0)) := by
  show (cfg1.win 2).cut (grid1.coords t) ((Sim.dat (F := Ideal) V c).after 2 t) = _
  rw [Sim.after_out]
  unfold Sim.out
  rw [View.canon_unit_zero hz]
  simp only [View.ld_unit_zero (S := S1024x512) hz]
  obtain ⟨-, -, -, -, b0, b1⟩ := idx_facts t
  funext y
  obtain ⟨p, q, rfl⟩ : ∃ (p q : Fin 1024), y = ix2 p q := ⟨y 0, y 1, eq_ix2 y⟩
  rw [View.read_apply]
  refine (pay_rows (V c main_v0) _ _ p q ⟨win1_2.index t (0 : Fin 2) * 1024 + p.val, by omega⟩ ⟨win1_2.index t (1 : Fin 2) * 1024 + q.val, by omega⟩
    (fun k => iblk_l_apply V c t p k _ rfl) (fun k => iblk_r_apply V c t q k _ rfl)).trans ?_
  show sims (V c main_v0) _ = sims (V c main_v0) _
  congr 1
  funext a
  apply Fin.ext
  match a with
  | ⟨0, _⟩ => show win1_2.index t (0 : Fin 2) * 1024 + p.val = win1_2.index t (0 : Fin 2) * 1024 + 1 * p.val; omega
  | ⟨1, _⟩ => show win1_2.index t (1 : Fin 2) * 1024 + q.val = win1_2.index t (1 : Fin 2) * 1024 + 1 * q.val; omega

/-! ## From the blocks to the array -/

/-- An entry of the result is in point `t`'s block iff each of its coordinates is in the block's range of 1024. -/
theorem mem_blk (t : Fin cfg1.N) (i : S8192x8192.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v1).slice (win1_2.rect t)).set ↔ _
  rw [View.set_slice_whole, Rect.mem_set_unit]
  exact Iff.rfl

/-- Entry `(r, s)` is written back by the point whose output block is `(r / 1024, s / 1024)`. -/
theorem covered (i : S8192x8192.Idx) : ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, flush1_2 t, ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- The result array after the launch: the clamped inner products of the rows of the array both input windows read. -/
theorem final (c : Dev nD) :
    (Cert.KernelIdeal.Sim.dat (F := Ideal) V c).arrAt 2 cfg1.N = Cert.RowCosine.sims (V c main_v0) :=
  (Sim.dat (F := Ideal) V c).arrAt_eq_of_cover 2 (sims (V c main_v0)) (fun t _ => flushed_eq V c t) covered

end Cert.KernelIdeal.SimValue

end
-- ==== Proof.lean ====
/-
  The claim: a two-launch kernel against its reference, over the extended reals.

  Both programs take features `x` (8192 rows of 512) and two weight rows `w`.  Row `n` is scaled entry by entry by the
  first weight row, clamped below at zero, scaled by the second weight row, and divided by its Euclidean length, the
  length clamped below at the pattern `0x2B8CBCCC`; entry `(n, m)` of the result is the inner product of normalised rows
  `n` and `m`, clamped below at zero (Proof/Spec.lean).  The kernel does the first part in one launch over 8 blocks of
  1024 rows, storing the rows in a narrower format (the identity on the extended reals), and the second in a launch over
  an 8 × 8 grid whose point `(i, j)` multiplies row block `i` by the transpose of row block `j` into a zero accumulator; the
  reference is one chain of host operations with a single contraction.  A different tiling and a different order of a sum
  change nothing on the extended reals, and no step moves a product across a sum, so the finiteness of the inputs is not
  used.

  The pieces: each launch's body and proof data at any float instance (Proof/NormKI.lean, Proof/SimKI.lean), the run of the
  two launches with the result array named (Proof/RunKI.lean; the second launch reads one array through both its input
  windows and holds it as two half shares), the same three for the word-level program, what each launch leaves at the
  ideal instance (Proof/NormValue.lean, Proof/SimValue.lean), and the reference's result (Proof/RefValue.lean).  The ideal
  pass rewrote nothing, so the idealization claim is trivial.
-/
import proofs.«135905_j29703993819980_1_alg».proof.Defs
import proofs.«135905_j29703993819980_1_alg».proof.Proof.Gen.Kernel
import proofs.«135905_j29703993819980_1_alg».proof.Proof.Gen.KernelIdeal
import proofs.«135905_j29703993819980_1_alg».proof.Proof.Gen.ReferenceIdeal
import proofs.«135905_j29703993819980_1_alg».proof.Proof.Gen.Pre_finite_inputs
import proofs.«135905_j29703993819980_1_alg».proof.Proof.RunK
import proofs.«135905_j29703993819980_1_alg».proof.Proof.RunKI
import proofs.«135905_j29703993819980_1_alg».proof.Proof.RefValue
import proofs.«135905_j29703993819980_1_alg».proof.Proof.Spec
import proofs.«135905_j29703993819980_1_alg».proof.Proof.NormValue
import proofs.«135905_j29703993819980_1_alg».proof.Proof.SimValue
import Idealize.ShloMosaic.Adequacy
import Idealize.ShloMosaic.Init

noncomputable section

namespace Cert.Proof

open Idealize.ShloMosaic Idealize.ShloMosaic.TcCoe Idealize.SL.Sem

/-- At the ideal instance the result array ends at the specification of the two argument arrays: the second launch
    leaves the clamped inner products of the rows it found in the intermediate array, and the first launch left there the
    normalised rows of the arguments. -/
theorem kernel_value (m : (ℓ : Loc Cert.KernelIdeal.nD Cert.KernelIdeal.τ Cert.KernelIdeal.sig) → Buf (Elt Ideal) ℓ)
    (c : Dev Cert.KernelIdeal.nD) :
    (Cert.KernelIdeal.Sim.dat (F := Ideal) (Cert.KernelIdeal.Whole.V1 m) c).arrAt 2 Cert.KernelIdeal.cfg1.N
      = Cert.RowCosine.result (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  rw [Cert.KernelIdeal.SimValue.final, Cert.KernelIdeal.Whole.V1_main_v0, Cert.KernelIdeal.NormValue.final]
  rfl

/-- The word-level program runs to the end and leaves its arguments as launched. -/
theorem frame_k : Cert.frame_Kernel := fun m ρ _ =>
  (θ_run Cert.Kernel.defs _ _).mono (fun _ h c => ⟨(h c).2.1, (h c).2.2⟩) (Cert.Kernel.Whole.run_main (F := Bits) m ρ)

/-- So does the idealized program. -/
theorem frame_ki : Cert.frame_KernelIdeal := fun m ρ _ =>
  (θ_run Cert.KernelIdeal.defs _ _).mono (fun _ h c => ⟨(h c).2.1, (h c).2.2⟩) (Cert.KernelIdeal.Whole.run_main (F := Ideal) m ρ)

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the two arguments both programs end with the specification of those arguments in
    their result arrays. -/
theorem algebraic : Cert.algebraic_KernelIdeal_ReferenceIdeal := by
  intro m ρ m' ρ' _ hagree
  refine ⟨fun c => Cert.RowCosine.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1.trans (kernel_value m c), (h c).2⟩)
      (Cert.KernelIdeal.Whole.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
